-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x16384 : Shape := ⟨3, ![64, 64, 16384]⟩
abbrev S_ : Shape := ⟨0, ![]⟩

class Facts : Prop where
  bcast_S_S64x64x16384 : S_.BroadcastsInDim S64x64x16384 (![] : Fin 0 → Fin S64x64x16384.rank)
  reducesTo_S64x64x16384_S_d0_1_2 : S64x64x16384.ReducesTo [0, 1, 2] S_
  h_S_ : 0 < S_.numel

variable [Facts]

def fn {F : FTy → Type} [FloatOps F] (main_arg0 : FVec F S64x64x16384 .f32) : IVec S_ 1 :=
  let main_v0 : FVec F S64x64x16384 .f32 := Host.absf main_arg0
  let main_cst : FVec F S_ .f32 := constant S_ .f32 0x7F800000#32
  let main_v1 : FVec F S64x64x16384 .f32 := broadcastInDim S64x64x16384 ![] bcast_S_S64x64x16384 main_cst
  let main_v2 : IVec S64x64x16384 1 := cmpf .olt main_v0 main_v1
  let main_c : IVec S_ 1 := constantI S_ 1 1#1
  let main_v3 : IVec S_ 1 := (fun x v => Host.reduce IntOp.andi x v reducesTo_S64x64x16384_S_d0_1_2 h_S_) main_v2 main_c
  main_v3
-- ==== Kernel.lean ====
abbrev S64x64x16384 : Shape := ⟨3, ![64, 64, 16384]⟩
abbrev S64x64x8192x2 : Shape := ⟨4, ![64, 64, 8192, 2]⟩
abbrev S64x2x64x8192 : Shape := ⟨4, ![64, 2, 64, 8192]⟩
abbrev S2x64x8192x2 : Shape := ⟨4, ![2, 64, 8192, 2]⟩
abbrev S2x2x64x8192 : Shape := ⟨4, ![2, 2, 64, 8192]⟩
abbrev S2x64x8192x1 : Shape := ⟨4, ![2, 64, 8192, 1]⟩
abbrev S2x64x8192 : Shape := ⟨3, ![2, 64, 8192]⟩
abbrev S2x1x64x8192 : Shape := ⟨4, ![2, 1, 64, 8192]⟩

abbrev nBuf : Space → Nat
  | .hbm => 3
  | .vmem => 4
  | .smem => 0
  | _ => 0

abbrev bufTy : (tb : Table) → Fin (tcTables nBuf tb) → BufTy
  | .hbm, ⟨0, _⟩ => ⟨S64x64x16384, .f32⟩
  | .hbm, ⟨1, _⟩ => ⟨S64x64x8192x2, .f32⟩
  | .hbm, ⟨2, _⟩ => ⟨S64x2x64x8192, .f32⟩
  | .local _ .vmem, ⟨0, _⟩ => ⟨S2x64x8192x2, .f32⟩
  | .local _ .vmem, ⟨1, _⟩ => ⟨S2x64x8192x2, .f32⟩
  | .local _ .vmem, ⟨2, _⟩ => ⟨S2x2x64x8192, .f32⟩
  | .local _ .vmem, ⟨3, _⟩ => ⟨S2x2x64x8192, .f32⟩
  | _, _ => ⟨S64x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x2x64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x64x16384_S64x64x8192x2 : S64x64x16384.ShapeCasts S64x64x8192x2
  inb_S2x64x8192x2_S2x64x8192x1_0_0_0_0 : ∀ a, (![0, 0, 0, 0] : Fin 4 → Nat) a + S2x64x8192x1.size a ≤ S2x64x8192x2.size a
  h_S2x64x8192x1 : 0 < S2x64x8192x1.numel
  shapeCasts_S2x64x8192x1_S2x64x8192 : S2x64x8192x1.ShapeCasts S2x64x8192
  inb_S2x64x8192x2_S2x64x8192x1_0_0_0_1 : ∀ a, (![0, 0, 0, 1] : Fin 4 → Nat) a + S2x64x8192x1.size a ≤ S2x64x8192x2.size a
  inb_S2x2x64x8192_S2x1x64x8192_0_0_0_0 : ∀ a, (![0, 0, 0, 0] : Fin 4 → Nat) a + S2x1x64x8192.size a ≤ S2x2x64x8192.size a
  h_S2x1x64x8192 : 0 < S2x1x64x8192.numel
  shapeCasts_S2x1x64x8192_S2x64x8192 : S2x1x64x8192.ShapeCasts S2x64x8192
  shapeCasts_S2x64x8192_S2x1x64x8192 : S2x64x8192.ShapeCasts S2x1x64x8192
  inb_S2x2x64x8192_S2x1x64x8192_0_1_0_0 : ∀ a, (![0, 1, 0, 0] : Fin 4 → Nat) a + S2x1x64x8192.size a ≤ S2x2x64x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x8192x2.size a ≤ S64x64x8192x2.size a
  hwx0_0 : ∀ i : grid0.Coords, EltTy.bits .f32 = 32 ∨ (Rect.block (s := S64x64x8192x2) S2x64x8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2x64x8192.size a ≤ S64x2x64x8192.size a
  hwx0_1 : ∀ i : grid0.Coords, EltTy.bits .f32 = 32 ∨ (Rect.block (s := S64x2x64x8192) S2x2x64x8192.size (cc0_transform_1 i) (hinb0_1 i)).WholeWords (EltTy.packing .f32)

variable [Facts₀]

abbrev win0_0 : Pipeline.Window sig grid0 :=
  Pipeline.Window.ofSpec (Memref.whole main_v0) S2x64x8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x2x64x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x64x16384 : Shape := ⟨3, ![64, 64, 16384]⟩
abbrev S64x64x8192x2 : Shape := ⟨4, ![64, 64, 8192, 2]⟩
abbrev S64x64x8192x1 : Shape := ⟨4, ![64, 64, 8192, 1]⟩
abbrev S64x64x8192 : Shape := ⟨3, ![64, 64, 8192]⟩
abbrev S_ : Shape := ⟨0, ![]⟩
abbrev S64x1x64x8192 : Shape := ⟨4, ![64, 1, 64, 8192]⟩
abbrev S64x2x64x8192 : Shape := ⟨4, ![64, 2, 64, 8192]⟩

abbrev nBuf : Space → Nat
  | .hbm => 21
  | .vmem => 0
  | .smem => 0
  | _ => 0

abbrev bufTy : (tb : Table) → Fin (tcTables nBuf tb) → BufTy
  | .hbm, ⟨0, _⟩ => ⟨S64x64x16384, .f32⟩
  | .hbm, ⟨1, _⟩ => ⟨S64x64x8192x2, .f32⟩
  | .hbm, ⟨2, _⟩ => ⟨S64x64x8192x1, .f32⟩
  | .hbm, ⟨3, _⟩ => ⟨S64x64x8192, .f32⟩
  | .hbm, ⟨4, _⟩ => ⟨S64x64x8192x1, .f32⟩
  | .hbm, ⟨5, _⟩ => ⟨S64x64x8192, .f32⟩
  | .hbm, ⟨6, _⟩ => ⟨S64x64x8192, .f32⟩
  | .hbm, ⟨7, _⟩ => ⟨S_, .f32⟩
  | .hbm, ⟨8, _⟩ => ⟨S64x64x8192, .f32⟩
  | .hbm, ⟨9, _⟩ => ⟨S64x64x8192, .f32⟩
  | .hbm, ⟨10, _⟩ => ⟨S64x64x8192x1, .f32⟩
  | .hbm, ⟨11, _⟩ => ⟨S64x64x8192, .f32⟩
  | .hbm, ⟨12, _⟩ => ⟨S64x64x8192x1, .f32⟩
  | .hbm, ⟨13, _⟩ => ⟨S64x64x8192, .f32⟩
  | .hbm, ⟨14, _⟩ => ⟨S64x64x8192, .f32⟩
  | .hbm, ⟨15, _⟩ => ⟨S_, .f32⟩
  | .hbm, ⟨16, _⟩ => ⟨S64x64x8192, .f32⟩
  | .hbm, ⟨17, _⟩ => ⟨S64x64x8192, .f32⟩
  | .hbm, ⟨18, _⟩ => ⟨S64x1x64x8192, .f32⟩
  | .hbm, ⟨19, _⟩ => ⟨S64x1x64x8192, .f32⟩
  | .hbm, ⟨20, _⟩ => ⟨S64x2x64x8192, .f32⟩
  | _, _ => ⟨S64x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩

abbrev nD : Nat := 1
abbrev τ : Topo := Topo.v7x

variable {F : FTy → Type} [FloatOps F]

class Facts₀ : Prop where
  shapeCasts_S64x64x16384_S64x64x8192x2 : S64x64x16384.ShapeCasts S64x64x8192x2
  slices_S64x64x8192x2_S64x64x8192x1_0_0_0_0 : S64x64x8192x2.Slices ![0, 0, 0, 0] S64x64x8192x1
  shapeCasts_S64x64x8192x1_S64x64x8192 : S64x64x8192x1.ShapeCasts S64x64x8192
  slices_S64x64x8192x2_S64x64x8192x1_0_0_0_1 : S64x64x8192x2.Slices ![0, 0, 0, 1] S64x64x8192x1
  bcast_S_S64x64x8192 : S_.BroadcastsInDim S64x64x8192 (![] : Fin 0 → Fin S64x64x8192.rank)
  bcast_S64x64x8192_S64x1x64x8192_0_2_3 : S64x64x8192.BroadcastsInDim S64x1x64x8192 (![0, 2, 3] : Fin 3 → Fin S64x1x64x8192.rank)
  concatenates_S64x1x64x8192_S64x1x64x8192_S64x2x64x8192_d1 : Shape.Concatenates [S64x1x64x8192, S64x1x64x8192] S64x2x64x8192 1

variable [Facts₀]

class Facts : Prop extends Facts₀ where

variable [Facts]
-- ==== Proof.HaarSpec.lean ====
/-
  The level-1 Haar analysis step as one function of the paired signal.

  A signal of even length is read as adjacent pairs (e, o) = (x[2k], x[2k+1]).  The step sends each pair to two
  coefficients: the approximation (e + o) · s and the detail (e − o) · s, where s is one fixed float32 constant (the
  rounding of 1/√2; only its word matters here, never its value).  Over a batch of rows the pairs are laid out
  [batch, channel, k, parity] and the coefficients [batch, band, channel, k], band 0 the approximation and band 1
  the detail.  Everything is stated for any float instance: no law of arithmetic is used, only that both programs
  apply the same operations to the same operands.
-/
import Idealize.ShloMosaic.Lib.ValueIdx

noncomputable section

namespace Cert.Haar

open Idealize.ShloMosaic Idealize.ShloMosaic.ValueIdx

variable {F : FTy → Type} [FloatOps F]

/-- The scaling constant, as the float32 word both programs carry. -/
abbrev scale : F .f32 := FloatOps.ofBits .f32 0x3F3504F3#32

/-- One butterfly: band 0 of the pair (e, o) is the scaled sum, every other band (band 1) the scaled difference. -/
def band (s : Nat) (e o : F .f32) : F .f32 :=
  if s = 0 then FloatOps.mulf (FloatOps.addf e o) scale else FloatOps.mulf (FloatOps.subf e o) scale

theorem band_zero (e o : F .f32) : band 0 e o = FloatOps.mulf (FloatOps.addf e o) scale := if_pos rfl
theorem band_one (e o : F .f32) : band 1 e o = FloatOps.mulf (FloatOps.subf e o) scale := if_neg (by decide)

/-- The whole signal as pairs: [batch 64, channel 64, k 8192, parity 2]. -/
abbrev Pairs : Shape := ⟨4, ![64, 64, 8192, 2]⟩
/-- The whole result: [batch 64, band 2, channel 64, k 8192]. -/
abbrev Bands : Shape := ⟨4, ![64, 2, 64, 8192]⟩
/-- Two batch rows of pairs: what one grid step of the kernel reads. -/
abbrev PairsBlk : Shape := ⟨4, ![2, 64, 8192, 2]⟩
/-- Two batch rows of coefficients: what one grid step of the kernel writes. -/
abbrev BandsBlk : Shape := ⟨4, ![2, 2, 64, 8192]⟩

/-- The coefficient at (batch b, band s, channel c, position k) of the paired signal `x`. -/
def coeff (x : Pairs.Idx → F .f32) (b : Fin 64) (s : Fin 2) (c : Fin 64) (k : Fin 8192) : F .f32 :=
  band s.val (x (ix4 b c k (0 : Fin 2))) (x (ix4 b c k (1 : Fin 2)))

/-- The transform of the whole paired signal. -/
def transform (x : Pairs.Idx → F .f32) : Bands.Idx → F .f32 := fun j => coeff x (j 0) (j 1) (j 2) (j 3)

theorem transform_ix4 (x : Pairs.Idx → F .f32) (b : Fin 64) (s : Fin 2) (c : Fin 64) (k : Fin 8192) :
    transform x (ix4 b s c k) = band s.val (x (ix4 b c k (0 : Fin 2))) (x (ix4 b c k (1 : Fin 2))) := rfl

/-- The same on two batch rows. -/
def coeffBlk (x : PairsBlk.Idx → F .f32) (b : Fin 2) (s : Fin 2) (c : Fin 64) (k : Fin 8192) : F .f32 :=
  band s.val (x (ix4 b c k (0 : Fin 2))) (x (ix4 b c k (1 : Fin 2)))

def transformBlk (x : PairsBlk.Idx → F .f32) : BandsBlk.Idx → F .f32 := fun j => coeffBlk x (j 0) (j 1) (j 2) (j 3)

theorem transformBlk_ix4 (x : PairsBlk.Idx → F .f32) (b : Fin 2) (s : Fin 2) (c : Fin 64) (k : Fin 8192) :
    transformBlk x (ix4 b s c k) = band s.val (x (ix4 b c k (0 : Fin 2))) (x (ix4 b c k (1 : Fin 2))) := rfl

/-- The transform acts row by row: if the two-row block `xb` is rows 2q, 2q+1 of `X` (element by element, the
    coordinates related as naturals), then the block's transform is rows 2q, 2q+1 of `X`'s transform. -/
theorem transformBlk_of_rows (X : Pairs.Idx → F .f32) (xb : PairsBlk.Idx → F .f32) (q : Nat)
    (hx : ∀ (y : PairsBlk.Idx) (i : Pairs.Idx), (i 0).val = q * 2 + (y 0).val → (i 1).val = (y 1).val →
      (i 2).val = (y 2).val → (i 3).val = (y 3).val → xb y = X i)
    (y : BandsBlk.Idx) (i : Bands.Idx) (h0 : (i 0).val = q * 2 + (y 0).val) (h1 : (i 1).val = (y 1).val)
    (h2 : (i 2).val = (y 2).val) (h3 : (i 3).val = (y 3).val) :
    transformBlk xb y = transform X i := by
  obtain ⟨b, s, c, k, rfl⟩ : ∃ (b : Fin 2) (s : Fin 2) (c : Fin 64) (k : Fin 8192), y = ix4 b s c k :=
    ⟨y 0, y 1, y 2, y 3, eq_ix4 y⟩
  obtain ⟨b', s', c', k', rfl⟩ : ∃ (b' : Fin 64) (s' : Fin 2) (c' : Fin 64) (k' : Fin 8192), i = ix4 b' s' c' k' :=
    ⟨i 0, i 1, i 2, i 3, eq_ix4 i⟩
  obtain rfl : s' = s := Fin.ext h1
  obtain rfl : c' = c := Fin.ext h2
  obtain rfl : k' = k := Fin.ext h3
  rw [transformBlk_ix4, transform_ix4, hx (ix4 b c' k' (0 : Fin 2)) (ix4 b' c' k' (0 : Fin 2)) h0 rfl rfl rfl,
    hx (ix4 b c' k' (1 : Fin 2)) (ix4 b' c' k' (1 : Fin 2)) h0 rfl rfl rfl]

end Cert.Haar

end
-- ==== Proof.HaarBlock.lean ====
/-
  One grid step of the kernel computes the Haar step of its two batch rows.

  The body loads its input block [2, 64, 8192, 2] twice, through the two unit slices along the parity axis (the even
  samples, the odd samples), drops that unit axis, forms (e + o) · s and (e − o) · s, gives each a unit band axis and
  stores the first at band 0 and the second at band 1 of the output block [2, 2, 64, 8192].  The two stores tile the
  block, so what the body leaves is, at (row b, band s, channel c, position k), the specification's coefficient of
  the block's pair (b, c, k): each stored value agrees with that one function at the place its rectangle puts it.
-/
import proofs.«424840_j35845797053007_4_alg».proof.Proof.Gen.KernelIdeal.Frame
import proofs.«424840_j35845797053007_4_alg».proof.Proof.HaarSpec
import Idealize.ShloMosaic.Lib.Pipeline.Value

noncomputable section

namespace Cert.Haar.Kernel

open Idealize.ShloMosaic Idealize.ShloMosaic.ValueIdx
open Cert.KernelIdeal Cert.KernelIdeal.Gen

variable {F : FTy → Type} [FloatOps F]

/-! ## The two shape casts of the body, read at an index -/

/-- Dropping the unit parity axis of a slice: (b, c, k) reads (b, c, k, 0). -/
theorem dropParity (v : Vec F S2x64x8192x1 .f32) (h : S2x64x8192x1.ShapeCasts S2x64x8192) (b : Fin 2) (c : Fin 64) (k : Fin 8192) :
    shapeCast S2x64x8192 v h (ix3 b c k) = v (ix4 b c k (0 : Fin 1)) :=
  shapeCast_apply v h (ix3 b c k) (ix4 b c k (0 : Fin 1)) (by
    rewrite [Shape.rowMajor_val_four, Shape.rowMajor_val_three]
    show ((b.val * 64 + c.val) * 8192 + k.val) * 1 + 0 = (b.val * 64 + c.val) * 8192 + k.val; omega)

/-- Adding the unit band axis: (b, 0, c, k) reads (b, c, k). -/
theorem addBand (v : FVec F S2x64x8192 .f32) (h : S2x64x8192.ShapeCasts S2x1x64x8192) (b : Fin 2) (s : Fin 1) (c : Fin 64) (k : Fin 8192) :
    shapeCast S2x1x64x8192 v h (ix4 b s c k) = v (ix3 b c k) :=
  shapeCast_apply v h (ix4 b s c k) (ix3 b c k) (by
    rewrite [Shape.rowMajor_val_three, Shape.rowMajor_val_four]
    have hs := s.isLt
    show (b.val * 64 + c.val) * 8192 + k.val = ((b.val * 1 + s.val) * 64 + c.val) * 8192 + k.val; omega)

/-! ## The two stored values at an index -/

/-- The value stored at band 0, at (b, 0, c, k): the scaled sum of the even and the odd slice at (b, c, k, 0). -/
theorem sum_apply (v0 v2 : Vec F S2x64x8192x1 .f32) (b : Fin 2) (s : Fin 1) (c : Fin 64) (k : Fin 8192) :
    k0_pay3 v0 v2 (ix4 b s c k) = band 0 (v0 (ix4 b c k (0 : Fin 1))) (v2 (ix4 b c k (0 : Fin 1))) := by
  unfold k0_pay3
  refine (addBand _ _ b s c k).trans ?_
  show FloatOps.mulf (FloatOps.addf (k0_pay1 v0 (ix3 b c k)) (k0_pay2 v2 (ix3 b c k))) scale = _
  unfold k0_pay1 k0_pay2
  rw [band_zero]
  exact congrArg₂ (fun e o => FloatOps.mulf (FloatOps.addf e o) scale) (dropParity v0 _ b c k) (dropParity v2 _ b c k)

/-- The value stored at band 1, at (b, 0, c, k): the scaled difference of the two slices at (b, c, k, 0). -/
theorem diff_apply (v0 v2 : Vec F S2x64x8192x1 .f32) (b : Fin 2) (s : Fin 1) (c : Fin 64) (k : Fin 8192) :
    k0_pay4 v0 v2 (ix4 b s c k) = band 1 (v0 (ix4 b c k (0 : Fin 1))) (v2 (ix4 b c k (0 : Fin 1))) := by
  unfold k0_pay4
  refine (addBand _ _ b s c k).trans ?_
  show FloatOps.mulf (FloatOps.subf (k0_pay1 v0 (ix3 b c k)) (k0_pay2 v2 (ix3 b c k))) scale = _
  unfold k0_pay1 k0_pay2
  rw [band_one]
  exact congrArg₂ (fun e o => FloatOps.mulf (FloatOps.subf e o) scale) (dropParity v0 _ b c k) (dropParity v2 _ b c k)

/-! ## Where the four rectangles of the body sit in their blocks -/

/-- The even slice's element (b, c, k, 0) is the block's (b, c, k, 0). -/
theorem even_idx (b : Fin 2) (c : Fin 64) (k : Fin 8192) : r0_0.idx (ix4 b c k (0 : Fin 1)) = ix4 b c k (0 : Fin 2) :=
  funext fun a => Fin.ext (by
    match a with
    | ⟨0, _⟩ => show 0 + 1 * b.val = b.val; omega
    | ⟨1, _⟩ => show 0 + 1 * c.val = c.val; omega
    | ⟨2, _⟩ => show 0 + 1 * k.val = k.val; omega
    | ⟨3, _⟩ => rfl)

/-- The odd slice's element (b, c, k, 0) is the block's (b, c, k, 1). -/
theorem odd_idx (b : Fin 2) (c : Fin 64) (k : Fin 8192) : r0_1.idx (ix4 b c k (0 : Fin 1)) = ix4 b c k (1 : Fin 2) :=
  funext fun a => Fin.ext (by
    match a with
    | ⟨0, _⟩ => show 0 + 1 * b.val = b.val; omega
    | ⟨1, _⟩ => show 0 + 1 * c.val = c.val; omega
    | ⟨2, _⟩ => show 0 + 1 * k.val = k.val; omega
    | ⟨3, _⟩ => rfl)

/-- The band-0 store's element (b, 0, c, k) lands at the block's (b, 0, c, k). -/
theorem approx_emb (b : Fin 2) (s : Fin 1) (c : Fin 64) (k : Fin 8192) : r0_2.emb (ix4 b s c k) = ix4 b (0 : Fin 2) c k :=
  funext fun a => Fin.ext (by
    have hs := s.isLt
    match a with
    | ⟨0, _⟩ => show 0 + 1 * b.val = b.val; omega
    | ⟨1, _⟩ => show 0 + 1 * s.val = 0; omega
    | ⟨2, _⟩ => show 0 + 1 * c.val = c.val; omega
    | ⟨3, _⟩ => show 0 + 1 * k.val = k.val; omega)

/-- The band-1 store's element (b, 0, c, k) lands at the block's (b, 1, c, k). -/
theorem detail_emb (b : Fin 2) (s : Fin 1) (c : Fin 64) (k : Fin 8192) : r0_3.emb (ix4 b s c k) = ix4 b (1 : Fin 2) c k :=
  funext fun a => Fin.ext (by
    have hs := s.isLt
    match a with
    | ⟨0, _⟩ => show 0 + 1 * b.val = b.val; omega
    | ⟨1, _⟩ => show 1 + 1 * s.val = 1; omega
    | ⟨2, _⟩ => show 0 + 1 * c.val = c.val; omega
    | ⟨3, _⟩ => show 0 + 1 * k.val = k.val; omega)

/-! ## What the body leaves -/

/-- THE OUTPUT BLOCK after the body is the transform of the input block: both stores are pieces of that one function,
    and together they cover the block. -/
theorem out_eq (x0 : Vec F S2x64x8192x2 .f32) : out0_1 x0 = transformBlk x0 := by
  funext y
  unfold out0_1
  refine View.canon_apply_of_pieces (transformBlk x0) _ ?_ y (cover0_1 _ _ y)
  intro p hp
  rcases List.mem_cons.mp hp with rfl | hp
  · intro x
    obtain ⟨b, s, c, k, rfl⟩ : ∃ (b : Fin 2) (s : Fin 1) (c : Fin 64) (k : Fin 8192), x = ix4 b s c k :=
      ⟨x 0, x 1, x 2, x 3, eq_ix4 x⟩
    show k0_pay4 (View.ld x0 r0_0) (View.ld x0 r0_1) (ix4 b s c k) = transformBlk x0 (r0_3.emb (ix4 b s c k))
    rw [diff_apply, detail_emb, transformBlk_ix4]
    show band 1 (x0 (r0_0.idx (ix4 b c k (0 : Fin 1)))) (x0 (r0_1.idx (ix4 b c k (0 : Fin 1)))) = _
    rw [even_idx, odd_idx]
    rfl
  · rcases List.mem_cons.mp hp with rfl | hp
    · intro x
      obtain ⟨b, s, c, k, rfl⟩ : ∃ (b : Fin 2) (s : Fin 1) (c : Fin 64) (k : Fin 8192), x = ix4 b s c k :=
        ⟨x 0, x 1, x 2, x 3, eq_ix4 x⟩
      show k0_pay3 (View.ld x0 r0_0) (View.ld x0 r0_1) (ix4 b s c k) = transformBlk x0 (r0_2.emb (ix4 b s c k))
      rw [sum_apply, approx_emb, transformBlk_ix4]
      show band 0 (x0 (r0_0.idx (ix4 b c k (0 : Fin 1)))) (x0 (r0_1.idx (ix4 b c k (0 : Fin 1)))) = _
      rw [even_idx, odd_idx]
      rfl
    · exact absurd hp List.not_mem_nil

end Cert.Haar.Kernel

end
-- ==== Proof.HaarArray.lean ====
/-
  The kernel's result array is the Haar step of the paired signal.

  The grid has 32 steps; step t reads rows 2t, 2t+1 of the paired signal [64, 64, 8192, 2] and writes rows 2t, 2t+1
  of the result [64, 2, 64, 8192], whole along every other axis.  Each step leaves the transform of its two rows
  (the body, read block by block), the transform acts row by row, so what step t writes back is rows 2t, 2t+1 of the
  transform of the whole paired signal; every row of the result is some step's, so the array ends holding that
  transform.  The paired signal itself is the reshape of the argument that the program makes before the call.
-/
import proofs.«424840_j35845797053007_4_alg».proof.Proof.Gen.KernelIdeal.Value
import proofs.«424840_j35845797053007_4_alg».proof.Proof.HaarBlock
import Idealize.ShloMosaic.Lib.StableHlo.Run

noncomputable section

namespace Cert.Haar.Kernel

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-! ## The schedule: which rows a step moves -/

/-- Step `t` of the grid moves block `t` along the batch axis and block 0 along every other axis, in and out
    (decided over the 32 steps). -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0 ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-! ## What a step writes back -/

/-- WHAT STEP `t` WRITES BACK is block `t` of the transform of the paired signal as the call finds it. -/
theorem flushed_eq (c : Dev nD) (t : Fin cfg0.N) :
    (dats m 0 c).flushed 1 t = ((cfg0.win 1).blk t).view.read (Elt F) (transform (V m c main_v0)) := by
  rw [Cert.KernelIdeal.Value.flushed1, out_eq]
  obtain ⟨e0, e1, e2, e3, f0, f1, f2, f3⟩ := idx_facts t
  funext j
  show transformBlk (iblk m c 0 t) j = transform (V m c main_v0) (((cfg0.win 1).blk t).view.emb j)
  refine transformBlk_of_rows (V m c main_v0) (iblk m c 0 t) t.val ?_ j (((cfg0.win 1).blk t).view.emb j) ?_ ?_ ?_ ?_
  · intro y i h0 h1 h2 h3
    show V m c main_v0 (((cfg0.win 0).blk t).view.emb y) = V m c main_v0 i
    refine congrArg (V m c main_v0) (funext fun a => Fin.ext ?_)
    match a with
    | ⟨0, _⟩ => show win0_0.index t (0 : Fin 4) * 2 + 1 * (y 0).val = (i 0).val; omega
    | ⟨1, _⟩ => show win0_0.index t (1 : Fin 4) * 64 + 1 * (y 1).val = (i 1).val; omega
    | ⟨2, _⟩ => show win0_0.index t (2 : Fin 4) * 8192 + 1 * (y 2).val = (i 2).val; omega
    | ⟨3, _⟩ => show win0_0.index t (3 : Fin 4) * 2 + 1 * (y 3).val = (i 3).val; omega
  · show win0_1.index t (0 : Fin 4) * 2 + 1 * (j 0).val = t.val * 2 + (j 0).val; omega
  · show win0_1.index t (1 : Fin 4) * 2 + 1 * (j 1).val = (j 1).val; omega
  · show win0_1.index t (2 : Fin 4) * 64 + 1 * (j 2).val = (j 2).val; omega
  · show win0_1.index t (3 : Fin 4) * 8192 + 1 * (j 3).val = (j 3).val; omega

/-! ## The steps' blocks cover the result -/

/-- An index of the result is in step `t`'s block iff each coordinate is in the block's range on its axis. -/
theorem mem_blk (t : Fin cfg0.N) (i : S64x2x64x8192.Idx) :
    i ∈ ((cfg0.win 1).blk t).view.set ↔ ∀ a : Fin 4, win0_1.index t a * S2x2x64x8192.size a ≤ (i a).val
      ∧ (i a).val < win0_1.index t a * S2x2x64x8192.size a + S2x2x64x8192.size a := by
  show i ∈ ((View.whole main_v1).slice (win0_1.rect t)).set ↔ _
  rw [View.set_slice_whole, Rect.mem_set_unit]
  exact Iff.rfl

/-- Row r of the result is written by step r / 2. -/
theorem covered (i : S64x2x64x8192.Idx) :
    ∃ t : Fin cfg0.N, (cfg0.win 1).flush t = true ∧ i ∈ ((cfg0.win 1).blk t).view.set := by
  have hi0 : (i 0).val < 64 := (i 0).isLt
  have hi1 : (i 1).val < 2 := (i 1).isLt
  have hi2 : (i 2).val < 64 := (i 2).isLt
  have hi3 : (i 3).val < 8192 := (i 3).isLt
  have hN : grid0.N = 32 := N_0
  let t : Fin cfg0.N := ⟨(i 0).val / 2, by show (i 0).val / 2 < grid0.N; omega⟩
  have htv : t.val = (i 0).val / 2 := rfl
  obtain ⟨-, -, -, -, f0, f1, f2, f3⟩ := idx_facts t
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 2 ≤ (i 1).val ∧ (i 1).val < win0_1.index t (1 : Fin 4) * 2 + 2; omega
  | ⟨2, _⟩ => show win0_1.index t (2 : Fin 4) * 64 ≤ (i 2).val ∧ (i 2).val < win0_1.index t (2 : Fin 4) * 64 + 64; omega
  | ⟨3, _⟩ => show win0_1.index t (3 : Fin 4) * 8192 ≤ (i 3).val ∧ (i 3).val < win0_1.index t (3 : Fin 4) * 8192 + 8192; omega

/-- THE RESULT ARRAY after the run is the transform of the paired signal as the call finds it. -/
theorem final (c : Dev nD) : (dats m 0 c).arrAt 1 cfg0.N = transform (V m c main_v0) :=
  (dats m 0 c).arrAt_eq_of_cover 1 (transform (V m c main_v0)) (fun t _ => flushed_eq m c t) covered

/-! ## The paired signal is the argument, reshaped -/

/-- What the call finds in its input array: the argument regrouped into pairs by the one reshape before the call. -/
theorem pairs_eq (c : Dev nD) :
    (V m c main_v0 : S64x64x8192x2.Idx → Elt F .f32)
      = shapeCast S64x64x8192x2 (m ((c : Thread nD τ).loc main_arg0)) shapeCasts_S64x64x16384_S64x64x8192x2 := by
  dsimp only [Gen.V, Gen.hostOps0]; after_results; rfl

/-! ## The run, read -/

/-- Every weakly fair execution of the program ends with the result array at the transform of the reshaped argument and
    the argument as launched. -/
theorem run : θ_run defs (onTc (τ := τ) (main (F := F))) ⟨m, fun _ => 0, ρ⟩ fun r => ∀ c : Dev nD,
      r.2.mem ((c : Thread nD τ).loc main_v1)
        = transform (shapeCast S64x64x8192x2 (m ((c : Thread nD τ).loc main_arg0)) shapeCasts_S64x64x16384_S64x64x8192x2)
      ∧ r.2.mem ((c : Thread nD τ).loc main_arg0) = m ((c : Thread nD τ).loc main_arg0) :=
  (θ_run defs _ _).mono (fun r h c => ⟨(h c).1.trans ((final m c).trans (congrArg transform (pairs_eq m c))), (h c).2⟩)
    (Cert.KernelIdeal.Value.run_blocks m ρ)

end Cert.Haar.Kernel

end
-- ==== Proof.HaarReference.lean ====
/-
  The reference program computes the Haar step of the paired signal.

  The reference reshapes the signal into pairs, takes the even and the odd sample of every pair by two unit slices
  along the parity axis, drops that axis, adds (subtracts) them, scales by the constant, gives each of the two
  results a unit band axis and joins them along it.  Read at an index (batch b, band s, channel c, position k) the
  join picks the sum for s = 0 and the difference for s = 1, and every layout operation on the way reads ONE element
  of the paired signal: the one at (b, c, k, 0) for the even slice, (b, c, k, 1) for the odd one.  That is the
  specification's coefficient.
-/
import proofs.«424840_j35845797053007_4_alg».proof.Proof.Gen.ReferenceIdeal.Read
import proofs.«424840_j35845797053007_4_alg».proof.Proof.HaarSpec

noncomputable section

namespace Cert.Haar.Reference

open Idealize.ShloMosaic Idealize.ShloMosaic.ValueIdx
open Cert.ReferenceIdeal Cert.ReferenceIdeal.Read

variable {F : FTy → Type} [FloatOps F]

/-- Dropping the unit band axis: (b, 0, c, k) of a joined operand is (b, c, k) of the product before it. -/
theorem unband_idx (b : Fin 64) (s : Fin 1) (c : Fin 64) (k : Fin 8192) :
    idx_main_v15 (ix4 b s c k) = ix3 b c k :=
  funext fun a => Fin.ext (by match a with | ⟨0, _⟩ => rfl | ⟨1, _⟩ => rfl | ⟨2, _⟩ => rfl)

/-- The even slice, its parity axis dropped, at (b, c, k) reads the pair's sample 0. -/
theorem even_idx (b : Fin 64) (c : Fin 64) (k : Fin 8192) :
    idx_main_v1 (idx_main_v2 (ix3 b c k)) = ix4 b c k (0 : Fin 2) :=
  funext fun a => Fin.ext (by
    have hb := b.isLt; have hc := c.isLt; have hk := k.isLt
    match a with
    | ⟨0, _⟩ => show ((b.val * 64 + c.val) * 8192 + k.val) / 524288 = b.val; omega
    | ⟨1, _⟩ => show ((b.val * 64 + c.val) * 8192 + k.val) / 8192 % 64 = c.val; omega
    | ⟨2, _⟩ => show ((b.val * 64 + c.val) * 8192 + k.val) / 1 % 8192 = k.val; omega
    | ⟨3, _⟩ => rfl)

/-- The odd slice, its parity axis dropped, at (b, c, k) reads the pair's sample 1. -/
theorem odd_idx (b : Fin 64) (c : Fin 64) (k : Fin 8192) :
    idx_main_v3 (idx_main_v4 (ix3 b c k)) = ix4 b c k (1 : Fin 2) :=
  funext fun a => Fin.ext (by
    have hb := b.isLt; have hc := c.isLt; have hk := k.isLt
    match a with
    | ⟨0, _⟩ => show ((b.val * 64 + c.val) * 8192 + k.val) / 524288 = b.val; omega
    | ⟨1, _⟩ => show ((b.val * 64 + c.val) * 8192 + k.val) / 8192 % 64 = c.val; omega
    | ⟨2, _⟩ => show ((b.val * 64 + c.val) * 8192 + k.val) / 1 % 8192 = k.val; omega
    | ⟨3, _⟩ => rfl)

/-- The scaled sum at (b, c, k): the approximation coefficient of the pair there. -/
theorem sum_apply (x0 : FVec F S64x64x16384 .f32) (b : Fin 64) (c : Fin 64) (k : Fin 8192) :
    val_main_v7 (F := F) x0 (ix3 b c k)
      = band 0 (val_main_v0 (F := F) x0 (ix4 b c k (0 : Fin 2))) (val_main_v0 (F := F) x0 (ix4 b c k (1 : Fin 2))) := by
  rw [val_main_v7_apply, val_main_v5_apply, val_main_v6_apply, val_main_cst_apply, val_main_v2_apply, val_main_v1_apply,
    val_main_v4_apply, val_main_v3_apply, even_idx, odd_idx, band_zero]

/-- The scaled difference at (b, c, k): the detail coefficient of the pair there. -/
theorem diff_apply (x0 : FVec F S64x64x16384 .f32) (b : Fin 64) (c : Fin 64) (k : Fin 8192) :
    val_main_v14 (F := F) x0 (ix3 b c k)
      = band 1 (val_main_v0 (F := F) x0 (ix4 b c k (0 : Fin 2))) (val_main_v0 (F := F) x0 (ix4 b c k (1 : Fin 2))) := by
  rw [val_main_v14_apply, val_main_v12_apply, val_main_v13_apply, val_main_cst_0_apply, val_main_v9_apply, val_main_v8_apply,
    val_main_v11_apply, val_main_v10_apply]
  rw [show idx_main_v8 (idx_main_v9 (ix3 b c k)) = ix4 b c k (0 : Fin 2) from even_idx b c k,
    show idx_main_v10 (idx_main_v11 (ix3 b c k)) = ix4 b c k (1 : Fin 2) from odd_idx b c k, band_one]

/-- THE REFERENCE'S RESULT is the transform of the paired signal. -/
theorem result_eq (x0 : FVec F S64x64x16384 .f32) :
    val_main_v17 (F := F) x0 = transform (val_main_v0 (F := F) x0) := by
  funext j
  obtain ⟨b, s, c, k, rfl⟩ : ∃ (b : Fin 64) (s : Fin 2) (c : Fin 64) (k : Fin 8192), j = ix4 b s c k :=
    ⟨j 0, j 1, j 2, j 3, eq_ix4 j⟩
  rw [transform_ix4]
  unfold val_main_v17
  match s with
  | ⟨0, _⟩ =>
    refine (concatenate_pair_apply_left (1 : Fin 4) (val_main_v15 (F := F) x0) (val_main_v16 (F := F) x0)
      _ (ix4 b (0 : Fin 2) c k) rfl (ix4 b (0 : Fin 1) c k)
      (fun a => by match a with | ⟨0, _⟩ => rfl | ⟨1, _⟩ => rfl | ⟨2, _⟩ => rfl | ⟨3, _⟩ => rfl)).trans ?_
    rw [val_main_v15_apply, unband_idx, sum_apply]
  | ⟨1, _⟩ =>
    refine (concatenate_pair_apply_right (1 : Fin 4) (val_main_v15 (F := F) x0) (val_main_v16 (F := F) x0)
      _ (ix4 b (1 : Fin 2) c k) rfl rfl (ix4 b (0 : Fin 1) c k)
      (fun a ha => by match a, ha with | ⟨0, _⟩, _ => rfl | ⟨1, _⟩, ha => exact absurd rfl ha | ⟨2, _⟩, _ => rfl | ⟨3, _⟩, _ => rfl) rfl).trans ?_
    rw [val_main_v16_apply]
    rw [show idx_main_v16 (ix4 b (0 : Fin 1) c k) = ix3 b c k from unband_idx b 0 c k, diff_apply]

end Cert.Haar.Reference

end
-- ==== Proof.lean ====
/-
  The level-1 Haar step, a Pallas kernel against its jnp reference, equal over the extended reals.

  Both programs regroup the signal x : f32[64, 64, 16384] into adjacent pairs [64, 64, 8192, 2] by the same reshape and
  return, at (batch b, band s, channel c, position k), the coefficient of the pair (b, c, k): (e + o) · s₀ for band 0
  and (e − o) · s₀ for band 1, with the same float32 word s₀ (the rounding of 1/√2) on both sides.  The kernel does it
  two batch rows per grid step, loading the even and the odd samples through two unit slices of its block and storing
  the two bands through two rectangles that tile the output block; the reference does it on whole arrays with slices,
  reshapes and a concatenation along the band axis.  No law of arithmetic joins the two sides — they apply the same
  three operations to the same two samples — so the precondition (finite inputs) is never opened, and the idealized
  kernel is the kernel's own text (no rewrite to account for).

  Proof/HaarSpec.lean states the transform; Proof/HaarBlock.lean reads one grid step's stores; Proof/HaarArray.lean puts the
  32 steps together and reads the program's run; Proof/HaarReference.lean reads the reference; here the five claims.
-/
import proofs.«424840_j35845797053007_4_alg».proof.Defs
import proofs.«424840_j35845797053007_4_alg».proof.Proof.Gen.Kernel
import proofs.«424840_j35845797053007_4_alg».proof.Proof.Gen.Kernel.Frame
import proofs.«424840_j35845797053007_4_alg».proof.Proof.Gen.KernelIdeal
import proofs.«424840_j35845797053007_4_alg».proof.Proof.Gen.KernelIdeal.Frame
import proofs.«424840_j35845797053007_4_alg».proof.Proof.Gen.ReferenceIdeal
import proofs.«424840_j35845797053007_4_alg».proof.Proof.Gen.Pre_finite_inputs
import proofs.«424840_j35845797053007_4_alg».proof.Proof.Gen.KernelIdeal.Value
import proofs.«424840_j35845797053007_4_alg».proof.Proof.Gen.ReferenceIdeal.Run
import proofs.«424840_j35845797053007_4_alg».proof.Proof.Gen.ReferenceIdeal.Read
import proofs.«424840_j35845797053007_4_alg».proof.Proof.HaarArray
import proofs.«424840_j35845797053007_4_alg».proof.Proof.HaarReference
import Idealize.ShloMosaic.Adequacy
import Idealize.ShloMosaic.Init

noncomputable section

namespace Cert.Proof

open Idealize.ShloMosaic Idealize.SL.Sem

/-- The word-level kernel runs and leaves its argument alone: the generated frame. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its argument alone: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: nothing was rewritten. -/
theorem preserves : Cert.preserves_Kernel_KernelIdeal := trivial

/-- From memories that agree on x, the kernel's result array ends at the transform of x regrouped into pairs
    (Proof/HaarArray.lean) and so does the reference's (Proof/HaarReference.lean): the same function of the same array. -/
theorem algebraic : Cert.algebraic_KernelIdeal_ReferenceIdeal := by
  intro m ρ m' ρ' _ hagree
  refine ⟨_, Cert.Haar.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Haar.Reference.result_eq, hagree c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
